-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S64x128 .f32) (main_arg3 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S64x128, .f32⟩
  | .local _ .vmem, ⟨4, _⟩ => ⟨S1x64, .f32⟩
  | .local _ .vmem, ⟨5, _⟩ => ⟨S400x64, .f32⟩
  | .local _ .vmem, ⟨6, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S64x128_S64x128_0_0 : ∀ a, (![0, 0] : Fin 2 → Nat) a + S64x128.size a ≤ S64x128.size a
  h_S64x128 : 0 < S64x128.numel
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S10000x128_S64x128_S10000x64_1_1_0_0_n_n_wf : DotDims.WF S10000x128 S64x128 S10000x64 [1] [1] [0] [0] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .f32 = 32 ∨ (Rect.block (s := S10000x64) S400x64.size (cc0_transform_4 i) (hinb0_4 i)).WholeWords (EltTy.packing .f32)

variable [Facts₀]

def dot_S10000x128_S64x128_S10000x64_1_1_0_0_n_n : DotDims S10000x128 S64x128 S10000x64 where
  lhsContracting := [1]
  rhsContracting := [1]
  lhsNonContracting := [0]
  rhsNonContracting := [0]
  lhsBatch := []
  rhsBatch := []
  wf := dot_S10000x128_S64x128_S10000x64_1_1_0_0_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S128x64 : Shape := ⟨2, ![128, 64]⟩
abbrev S10000x64 : Shape := ⟨2, ![10000, 64]⟩
abbrev S1x64 : Shape := ⟨2, ![1, 64]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S64, .f32⟩
  | .hbm, ⟨4, _⟩ => ⟨S10000x128, .f32⟩
  | .hbm, ⟨5, _⟩ => ⟨S128x64, .f32⟩
  | .hbm, ⟨6, _⟩ => ⟨S10000x64, .f32⟩
  | .hbm, ⟨7, _⟩ => ⟨S1x64, .f32⟩
  | .hbm, ⟨8, _⟩ => ⟨S10000x64, .f32⟩
  | .hbm, ⟨9, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.Spec.lean ====
/-
  One graph-convolution layer with a dense adjacency: out = adj · x · Wᵀ + b, for x of 10000 nodes by 128
  features, adj 10000 × 10000, W of 64 classes by 128 features and b of 64 classes.

  The product of three matrices can be bracketed in two ways. "Propagate, then project" sums over the
  neighbours first: out[i, c] = ∑ f, (∑ k, adj[i, k] · x[k, f]) · W[c, f] + b[c]. "Project, then propagate"
  first maps every node's features to classes and then sums over the neighbours:
  out[i, c] = ∑ k, adj[i, k] · (∑ f, x[k, f] · W[c, f]) + b[c]. Both are stated here as functions of the four
  arrays over the extended reals, index by index, and shown equal when the entries of adj, x and W are real
  numbers: then every product and partial sum is real, multiplication distributes over the sums, and the two
  finite sums may be exchanged. (With an infinite entry the law fails: the extended reals do not distribute.)
-/
import Idealize.ShloMosaic.PureOps.Ideal
import Idealize.ShloMosaic.Lib.ValueIdx

noncomputable section

open scoped BigOperators

namespace Cert.GraphLayer

open Idealize.ShloMosaic Idealize.ShloMosaic.ValueIdx

/-- Node features, adjacency, class weights, class bias and the layer's output, as index sets. -/
abbrev Feat : Shape := ⟨2, ![10000, 128]⟩
abbrev Adj : Shape := ⟨2, ![10000, 10000]⟩
abbrev Wt : Shape := ⟨2, ![64, 128]⟩
abbrev Bias : Shape := ⟨1, ![64]⟩
abbrev Out : Shape := ⟨2, ![10000, 64]⟩

/-- Neighbours first: row i of adj · x, then its product with row c of W, plus b[c]. -/
def propagateThenProject (x : Feat.Idx → EReal) (adj : Adj.Idx → EReal) (W : Wt.Idx → EReal) (b : Bias.Idx → EReal) :
    Out.Idx → EReal := fun i =>
  (∑ f : Fin 128, (∑ k : Fin 10000, adj (ix2 (i 0) k) * x (ix2 k f)) * W (ix2 (i 1) f)) + b (ix1 (i 1))

/-- Classes first: node k's projection x[k, ·] · W[c, ·], then row i of adj against it, plus b[c]. -/
def projectThenPropagate (x : Feat.Idx → EReal) (adj : Adj.Idx → EReal) (W : Wt.Idx → EReal) (b : Bias.Idx → EReal) :
    Out.Idx → EReal := fun i =>
  (∑ k : Fin 10000, adj (ix2 (i 0) k) * (∑ f : Fin 128, x (ix2 k f) * W (ix2 (i 1) f))) + b (ix1 (i 1))

/-- The inclusion of the reals into the extended reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Associativity of the triple product over the reals, read inside the extended reals: for real a, x, w,
    ∑ k, a k · (∑ f, x k f · w f) = ∑ f, (∑ k, a k · x k f) · w f. -/
theorem sum_mul_sum_assoc {κ φ : Type*} [Fintype κ] [Fintype φ] (a : κ → ℝ) (x : κ → φ → ℝ) (w : φ → ℝ) :
    ∑ k, (a k : EReal) * (∑ f, (x k f : EReal) * (w f : EReal))
      = ∑ f, (∑ k, (a k : EReal) * (x k f : EReal)) * (w f : EReal) := by
  have hreal : ∑ k, a k * (∑ f, x k f * w f) = ∑ f, (∑ k, a k * x k f) * w f := by
    simp only [Finset.mul_sum, Finset.sum_mul]
    rw [Finset.sum_comm]
    simp only [mul_assoc]
  have hl : ∑ k, (a k : EReal) * (∑ f, (x k f : EReal) * (w f : EReal))
      = ((∑ k, a k * (∑ f, x k f * w f) : ℝ) : EReal) := by
    rw [coe_sum]
    refine Finset.sum_congr rfl fun k _ => ?_
    rw [EReal.coe_mul, coe_sum]
    simp only [EReal.coe_mul]
  have hr : ∑ f, (∑ k, (a k : EReal) * (x k f : EReal)) * (w f : EReal)
      = ((∑ f, (∑ k, a k * x k f) * w f : ℝ) : EReal) := by
    rw [coe_sum]
    refine Finset.sum_congr rfl fun f _ => ?_
    rw [EReal.coe_mul, coe_sum]
    simp only [EReal.coe_mul]
  rw [hl, hr, hreal]

/-- An array of extended reals all of whose entries are real. -/
def AllReal {s : Shape} (v : s.Idx → EReal) : Prop := ∀ i, ∃ r : ℝ, v i = (r : EReal)

/-- The two bracketings agree when adj, x and W hold real numbers (b may be anything: it is added last on
    both sides). -/
theorem projectThenPropagate_eq (x : Feat.Idx → EReal) (adj : Adj.Idx → EReal) (W : Wt.Idx → EReal) (b : Bias.Idx → EReal)
    (hx : AllReal x) (hadj : AllReal adj) (hW : AllReal W) :
    projectThenPropagate x adj W b = propagateThenProject x adj W b := by
  choose xr hxr using hx
  choose ar har using hadj
  choose wr hwr using hW
  funext i
  unfold projectThenPropagate propagateThenProject
  simp only [hxr, har, hwr]
  rw [sum_mul_sum_assoc (fun k => ar (ix2 (i 0) k)) (fun k f => xr (ix2 k f)) (fun f => wr (ix2 (i 1) f))]

end Cert.GraphLayer

end
-- ==== Proof.Finite.lean ====
/-
  From the precondition to real entries. The precondition is, for each of the four arrays, the conjunction
  over every entry v of |v| < +∞, and the four conjunctions joined by "and". Read at the extended reals, where
  |v| is max v (-v), an entry whose absolute value is below +∞ is neither +∞ nor -∞: it is a real number.
-/
import proofs.«111400_g65816078844241_cont_9to1c4b_298_6_alg».proof.Pre_finite_inputs
import proofs.«111400_g65816078844241_cont_9to1c4b_298_6_alg».proof.Proof.Spec
import Idealize.ShloMosaic.Lib.ReduceAll
import Idealize.ShloMosaic.Lib.ValueIdx

noncomputable section

namespace Cert.GraphLayer

open Idealize.ShloMosaic Idealize.ShloMosaic.ValueIdx

/-- The result of a reduction over every axis has exactly one index. -/
instance : Subsingleton Cert.Pre_finite_inputs.S_.Idx := ⟨fun _ _ => funext fun d => d.elim0⟩

/-- The f32 word 0x7F800000 is +∞. -/
theorem inf_word : Ideal.ofBits .f32 0x7F800000#32 = (⊤ : EReal) := by simp [Ideal.ofBits, Ideal.ieee]

/-- An extended real v with max v (-v) < +∞ is a real number. -/
theorem real_of_abs_lt_inf (v : EReal)
    (h : Ideal.cmp .olt (max v (-v)) (Ideal.ofBits .f32 0x7F800000#32) = 1#1) : ∃ r : ℝ, v = (r : EReal) := by
  rw [inf_word] at h
  induction v using EReal.rec with
  | bot => simp [Ideal.cmp] at h
  | top => simp [Ideal.cmp] at h
  | coe r => exact ⟨r, rfl⟩

variable [Cert.Pre_finite_inputs.Facts]

/-- Under the precondition every entry of x, adj, W and b is a real number. -/
theorem allReal_of_pre (x : FVec Ideal Cert.Pre_finite_inputs.S10000x128 .f32)
    (adj : FVec Ideal Cert.Pre_finite_inputs.S10000x10000 .f32) (W : FVec Ideal Cert.Pre_finite_inputs.S64x128 .f32)
    (b : FVec Ideal Cert.Pre_finite_inputs.S64 .f32)
    (h : Cert.Pre_finite_inputs.fn (F := Ideal) x adj W b = fun _ => 1#1) :
    AllReal (s := Feat) x ∧ AllReal (s := Adj) adj ∧ AllReal (s := Wt) W ∧ AllReal (s := Bias) b := by
  have h0 := congrFun h ix0
  dsimp only [Cert.Pre_finite_inputs.fn, Cert.Pre_finite_inputs.fn_part1] at h0
  simp only [andi, IntOp.andi_eq_one] at h0
  obtain ⟨⟨⟨h1, h2⟩, h3⟩, h4⟩ := h0
  exact ⟨fun i => real_of_abs_lt_inf (x i) (Host.reduce_andi_all _ _ _ _ _ h1 i),
    fun i => real_of_abs_lt_inf (adj i) (Host.reduce_andi_all _ _ _ _ _ h2 i),
    fun i => real_of_abs_lt_inf (W i) (Host.reduce_andi_all _ _ _ _ _ h3 i),
    fun i => real_of_abs_lt_inf (b i) (Host.reduce_andi_all _ _ _ _ _ h4 i)⟩

end Cert.GraphLayer

end
-- ==== Proof.RefValue.lean ====
/-
  The reference computes "propagate, then project". Its six host operations, read at an output index (i, c):
  the first product is h[i, f] = ∑ k, adj[i, k] · x[k, f]; the transpose reads W at (c, f) where the second
  product asks for Wᵀ at (f, c); the second product is ∑ f, h[i, f] · Wᵀ[f, c]; the two broadcasts read b at c;
  the last operation adds them.
-/
import proofs.«111400_g65816078844241_cont_9to1c4b_298_6_alg».proof.Proof.Gen.ReferenceIdeal.Read
import proofs.«111400_g65816078844241_cont_9to1c4b_298_6_alg».proof.Proof.Spec

noncomputable section

namespace Cert.GraphLayer

open Idealize.ShloMosaic Idealize.ShloMosaic.ValueIdx Cert.ReferenceIdeal Cert.ReferenceIdeal.Read

/-- Row i of adj at neighbour k, as the first product reads its left operand from the second product's row. -/
theorem adj_index (i : S10000x64.Idx) (f : Fin 128) (k : Fin 10000) :
    lidx_main_v0 (lidx_main_v2 i f) k = ix2 (i 0) k :=
  funext fun a => Fin.ext (by match a with | ⟨0, _⟩ => rfl | ⟨1, _⟩ => rfl)

/-- Node k's feature f, as the first product reads its right operand. -/
theorem feat_index (i : S10000x64.Idx) (f : Fin 128) (k : Fin 10000) :
    ridx_main_v0 (lidx_main_v2 i f) k = ix2 k f :=
  funext fun a => Fin.ext (by match a with | ⟨0, _⟩ => rfl | ⟨1, _⟩ => rfl)

/-- The transposed weight at (f, c) is W at (c, f). -/
theorem weight_index (i : S10000x64.Idx) (f : Fin 128) :
    idx_main_v1 (ridx_main_v2 i f) = ix2 (i 1) f :=
  funext fun a => Fin.ext (by match a with | ⟨0, _⟩ => rfl | ⟨1, _⟩ => rfl)

/-- The bias broadcast down the rows is b at the column. -/
theorem bias_index (i : S10000x64.Idx) : idx_main_v3 (idx_main_v4 i) = ix1 (i 1) :=
  funext fun a => Fin.ext (by match a with | ⟨0, _⟩ => rfl)

/-- The reference's result, as a function of its four arguments, is "propagate, then project". -/
theorem reference_eq (x : FVec Ideal S10000x128 .f32) (adj : FVec Ideal S10000x10000 .f32) (W : FVec Ideal S64x128 .f32)
    (b : FVec Ideal S64 .f32) :
    val_main_v5 (F := Ideal) x adj W b = propagateThenProject x adj W b := by
  funext i
  rw [val_main_v5_apply, val_main_v2_apply, val_main_v4_apply, val_main_v3_apply]
  simp only [val_main_v0_apply, val_main_v1_apply, adj_index, feat_index, weight_index, bias_index, Ideal.addf_def]
  rfl

end Cert.GraphLayer

end
-- ==== Proof.Payload.lean ====
/-
  What the kernel body stores, at one entry of its 400 × 64 output block. The body holds a 400-row block of
  adj, all of x, all of W and b as a one-row matrix. It first projects every node,
  p[k, c] = ∑ f, x[k, f] · W[c, f] (a product contracting the feature axis of both operands, into a zero
  accumulator), then propagates, ∑ k, adjblock[r, k] · p[k, c] (again into a zero accumulator), and adds the bias
  row broadcast down the 400 rows. So entry (r, c) of the block is "project, then propagate" along row r of the
  adj block.
-/
import proofs.«111400_g65816078844241_cont_9to1c4b_298_6_alg».proof.Proof.Gen.KernelIdeal.Skeleton
import proofs.«111400_g65816078844241_cont_9to1c4b_298_6_alg».proof.Proof.Spec
import Idealize.ShloMosaic.Lib.Pipeline.Value
import Idealize.ShloMosaic.Lib.ValueIdx
import Idealize.ShloMosaic.PureOps.Ideal.Laws

noncomputable section

namespace Cert.GraphLayer

open Idealize.ShloMosaic Idealize.ShloMosaic.ValueIdx Cert.KernelIdeal Cert.KernelIdeal.Gen

/-! ## The projection x · Wᵀ: both operands contract their feature axis (axis 1) -/

theorem project_lhs_0 (i : S10000x64.Idx) (q : dot_S10000x128_S64x128_S10000x64_1_1_0_0_n_n.contr.Idx) :
    (dot_S10000x128_S64x128_S10000x64_1_1_0_0_n_n.lhsIdx i q 0).val = (i 0).val := by
  unfold DotDims.lhsIdx
  rw [dif_neg (show ¬(0 : Fin S10000x128.rank) ∈ dot_S10000x128_S64x128_S10000x64_1_1_0_0_n_n.lhsBatch by decide), dif_pos (show (0 : Fin S10000x128.rank) ∈ dot_S10000x128_S64x128_S10000x64_1_1_0_0_n_n.lhsNonContracting by decide)]
  rfl
theorem project_lhs_1 (i : S10000x64.Idx) (q : dot_S10000x128_S64x128_S10000x64_1_1_0_0_n_n.contr.Idx) :
    (dot_S10000x128_S64x128_S10000x64_1_1_0_0_n_n.lhsIdx i q 1).val = (q ⟨0, by decide⟩).val :=
  dot_S10000x128_S64x128_S10000x64_1_1_0_0_n_n.lhsIdx_val_of_single rfl i q
theorem project_rhs_0 (i : S10000x64.Idx) (q : dot_S10000x128_S64x128_S10000x64_1_1_0_0_n_n.contr.Idx) :
    (dot_S10000x128_S64x128_S10000x64_1_1_0_0_n_n.rhsIdx i q 0).val = (i 1).val := by
  unfold DotDims.rhsIdx
  rw [dif_neg (show ¬(0 : Fin S64x128.rank) ∈ dot_S10000x128_S64x128_S10000x64_1_1_0_0_n_n.rhsBatch by decide), dif_pos (show (0 : Fin S64x128.rank) ∈ dot_S10000x128_S64x128_S10000x64_1_1_0_0_n_n.rhsNonContracting by decide)]
  rfl
theorem project_rhs_1 (i : S10000x64.Idx) (q : dot_S10000x128_S64x128_S10000x64_1_1_0_0_n_n.contr.Idx) :
    (dot_S10000x128_S64x128_S10000x64_1_1_0_0_n_n.rhsIdx i q 1).val = (q ⟨0, by decide⟩).val :=
  dot_S10000x128_S64x128_S10000x64_1_1_0_0_n_n.rhsIdx_val_of_single rfl i q

/-- Node k's projection onto class c: the sum over the features of x[k, f] · W[c, f]. -/
theorem project_apply (v0 : FVec Ideal S10000x128 .f32) (v1 : FVec Ideal S64x128 .f32) (k : Fin 10000) (c : Fin 64) :
    matmul dot_S10000x128_S64x128_S10000x64_1_1_0_0_n_n none v0 v1 (constant S10000x64 .f32 0x00000000#32) (ix2 k c)
      = ∑ f : Fin 128, v0 (ix2 k f) * v1 (ix2 c f) := by
  simp only [matmul]
  rw [Ideal.matmul_constant_zero_apply, ← Equiv.sum_comp (contrEquiv1 dot_S10000x128_S64x128_S10000x64_1_1_0_0_n_n 128 rfl rfl).symm]
  refine Finset.sum_congr rfl fun f _ => ?_
  have hf := contrEquiv1_symm_val dot_S10000x128_S64x128_S10000x64_1_1_0_0_n_n 128 rfl rfl f
  have el : dot_S10000x128_S64x128_S10000x64_1_1_0_0_n_n.lhsIdx (ix2 k c) ((contrEquiv1 dot_S10000x128_S64x128_S10000x64_1_1_0_0_n_n 128 rfl rfl).symm f) = ix2 k f := funext fun a => Fin.ext (by
    match a with
    | ⟨0, _⟩ => exact project_lhs_0 _ _
    | ⟨1, _⟩ => exact (project_lhs_1 _ _).trans hf)
  have er : dot_S10000x128_S64x128_S10000x64_1_1_0_0_n_n.rhsIdx (ix2 k c) ((contrEquiv1 dot_S10000x128_S64x128_S10000x64_1_1_0_0_n_n 128 rfl rfl).symm f) = ix2 c f := funext fun a => Fin.ext (by
    match a with
    | ⟨0, _⟩ => exact project_rhs_0 _ _
    | ⟨1, _⟩ => exact (project_rhs_1 _ _).trans hf)
  rw [el, er]

/-! ## The propagation adjblock · p: the block's columns against the projection's rows -/

theorem propagate_lhs_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem propagate_lhs_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem propagate_rhs_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem propagate_rhs_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- Row r of the adjacency block against column c of the projected nodes. -/
theorem propagate_apply (v3 : FVec Ideal S400x10000 .f32) (p : FVec Ideal S10000x64 .f32) (r : Fin 400) (c : Fin 64) :
    matmul dot_S400x10000_S10000x64_S400x64_1_0_0_1_n_n none v3 p (constant S400x64 .f32 0x00000000#32) (ix2 r c)
      = ∑ k : Fin 10000, v3 (ix2 r k) * p (ix2 k c) := by
  simp only [matmul]
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 r c) ((contrEquiv1 dot_S400x10000_S10000x64_S400x64_1_0_0_1_n_n 10000 rfl rfl).symm k) = ix2 r k := funext fun a => Fin.ext (by
    match a with
    | ⟨0, _⟩ => exact propagate_lhs_0 _ _
    | ⟨1, _⟩ => exact (propagate_lhs_1 _ _).trans hk)
  have er : dot_S400x10000_S10000x64_S400x64_1_0_0_1_n_n.rhsIdx (ix2 r c) ((contrEquiv1 dot_S400x10000_S10000x64_S400x64_1_0_0_1_n_n 10000 rfl rfl).symm k) = ix2 k c := funext fun a => Fin.ext (by
    match a with
    | ⟨0, _⟩ => exact (propagate_rhs_0 _ _).trans hk
    | ⟨1, _⟩ => exact propagate_rhs_1 _ _)
  rw [el, er]

/-! ## The bias row broadcast down the block's rows -/

theorem bias_row_apply (v5 : FVec Ideal S1x64 .f32) (h : S1x64.Broadcasts S400x64) (r : Fin 400) (c : Fin 64) :
    broadcastTo S400x64 v5 h (ix2 r c) = v5 (ix2 (0 : Fin 1) c) :=
  broadcastTo_apply v5 h (ix2 r c) (ix2 (0 : Fin 1) c) (fun a => match a with
    | ⟨0, _⟩ => by show 0 = if (1 : Nat) = 1 then 0 else _; rw [if_pos rfl]
    | ⟨1, _⟩ => by show c.val = if (64 : Nat) = 1 then 0 else c.val; rw [if_neg (by decide)])

/-! ## The stored value -/

/-- Entry (r, c) of the block the body stores. -/
theorem stored_apply (v0 : FVec Ideal S10000x128 .f32) (v1 : FVec Ideal S64x128 .f32) (v3 : FVec Ideal S400x10000 .f32)
    (v5 : FVec Ideal S1x64 .f32) (r : Fin 400) (c : Fin 64) :
    k0_pay1 (F := Ideal) v0 v1 v3 v5 (ix2 r c)
      = (∑ k : Fin 10000, v3 (ix2 r k) * ∑ f : Fin 128, v0 (ix2 k f) * v1 (ix2 c f)) + v5 (ix2 (0 : Fin 1) c) := by
  unfold k0_pay1
  rw [addf_apply, propagate_apply, shapeCast_self, bias_row_apply]
  refine congrArg (· + v5 (ix2 (0 : Fin 1) c)) (Finset.sum_congr rfl fun k _ => ?_)
  rw [project_apply]

/-- The same against whole arrays: when the loaded blocks hold x, W, row number row of adj (at block row r) and b as a
    row, entry (r, c) of the stored block is "project, then propagate" at (row, c). -/
theorem stored_is_row (x : Feat.Idx → EReal) (adj : Adj.Idx → EReal) (W : Wt.Idx → EReal) (b : Bias.Idx → EReal)
    (v0 : FVec Ideal S10000x128 .f32) (v1 : FVec Ideal S64x128 .f32) (v3 : FVec Ideal S400x10000 .f32)
    (v5 : FVec Ideal S1x64 .f32) (row : Fin 10000) (r : Fin 400) (c : Fin 64)
    (h0 : ∀ k f, v0 (ix2 k f) = x (ix2 k f)) (h1 : ∀ f, v1 (ix2 c f) = W (ix2 c f))
    (h3 : ∀ k, v3 (ix2 r k) = adj (ix2 row k)) (h5 : v5 (ix2 (0 : Fin 1) c) = b (ix1 c)) :
    k0_pay1 (F := Ideal) v0 v1 v3 v5 (ix2 r c) = projectThenPropagate x adj W b (ix2 row c) := by
  rw [stored_apply, h5]
  unfold projectThenPropagate
  simp only [h0, h1, h3]

end Cert.GraphLayer

end
-- ==== Proof.KernelValue.lean ====
/-
  From blocks to the array. The grid has 25 points; point t stages rows 400·t … 400·t + 399 of adj (all 10000
  columns), all of x, all of W, and the bias as the one-row matrix a reshape made of b before the call, and writes
  back rows 400·t … 400·t + 399 of the output (all 64 columns). Entry (r, c) of what point t writes back is
  therefore "project, then propagate" at (400·t + r, c) of the arrays the call was launched with; the 25 row
  blocks tile the 10000 rows, so after the run the whole output array is that function.
-/
import proofs.«111400_g65816078844241_cont_9to1c4b_298_6_alg».proof.Proof.Gen.KernelIdeal.Value
import proofs.«111400_g65816078844241_cont_9to1c4b_298_6_alg».proof.Proof.Payload

noncomputable section

namespace Cert.GraphLayer.Kernel

open Cert.GraphLayer Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The block each window is on at point t: the adj block and the output block are on block row t, the three
    resident operands on their one block. Decided over the 25 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer's output as a function of the arrays core c was launched with. -/
abbrev layer (c : Dev nD) : S10000x64.Idx → EReal :=
  projectThenPropagate (m ((c : Thread nD τ).loc main_arg0)) (m ((c : Thread nD τ).loc main_arg1)) (m ((c : Thread nD τ).loc main_arg2)) (m ((c : Thread nD τ).loc main_arg3))

/-- The one host operation before the call reshapes b into a one-row matrix: that is the array window 3 stages. -/
theorem bias_matrix (c : Dev nD) :
    (V m c main_v0 : S1x64.Idx → EReal) = shapeCast S1x64 (m ((c : Thread nD τ).loc main_arg3)) shapeCasts_S64_S1x64 := by
  dsimp only [Gen.V, Gen.hostOps0]; after_results; rfl

/-- Entry (0, q) of the one-row matrix is b[q]. -/
theorem bias_matrix_apply (c : Dev nD) (q : Fin 64) :
    (V m c main_v0 : S1x64.Idx → EReal) (ix2 (0 : Fin 1) q) = (m ((c : Thread nD τ).loc main_arg3)) (ix1 q) := by
  rw [bias_matrix]
  refine shapeCast_apply _ _ (ix2 (0 : Fin 1) q) (ix1 q) ?_
  rw [Shape.rowMajor_val_one, Shape.rowMajor_val_two]
  show q.val = 0 * 64 + q.val
  omega

/-- What point t writes back is block t of the layer's output. -/
theorem flushed_eq (c : Dev nD) (t : Fin cfg0.N) :
    (dats m 0 c).flushed 4 t = ((cfg0.win 4).blk t).view.read (Elt Ideal) (layer m c) := by
  rw [Value.flushed4]
  unfold out0_4
  rw [View.canon_unit_zero origin]
  simp only [View.ld_unit_zero (S := S10000x128) origin, View.ld_unit_zero (S := S64x128) origin,
    View.ld_unit_zero (S := S400x10000) origin, View.ld_unit_zero (S := S1x64) origin]
  obtain ⟨e00, e01, e10, e11, e20, e21, e30, e31, e40, e41⟩ := block_indices t
  funext j
  obtain ⟨r, q, rfl⟩ : ∃ (r : Fin 400) (q : Fin 64), j = ix2 r q := ⟨j 0, j 1, eq_ix2 j⟩
  have ht : t.val < 25 := t.isLt
  have hr : r.val < 400 := r.isLt
  have hrow : t.val * 400 + r.val < 10000 := by omega
  show k0_pay1 (iblk m c 1 t) (iblk m c 2 t) (iblk m c 0 t) (iblk m c 3 t) (ix2 r q)
    = layer m c (((cfg0.win 4).blk t).view.emb (ix2 r q))
  have hemb : ((cfg0.win 4).blk t).view.emb (ix2 r q) = ix2 (⟨t.val * 400 + r.val, hrow⟩ : Fin 10000) q := by
    funext a; apply Fin.ext
    match a with
    | ⟨0, _⟩ => show win0_4.index t (0 : Fin 2) * 400 + 1 * r.val = t.val * 400 + r.val; omega
    | ⟨1, _⟩ => show win0_4.index t (1 : Fin 2) * 64 + 1 * q.val = q.val; omega
  rw [hemb]
  refine stored_is_row (m ((c : Thread nD τ).loc main_arg0)) (m ((c : Thread nD τ).loc main_arg1)) (m ((c : Thread nD τ).loc main_arg2)) (m ((c : Thread nD τ).loc main_arg3))
    (iblk m c 1 t) (iblk m c 2 t) (iblk m c 0 t) (iblk m c 3 t) ⟨t.val * 400 + r.val, hrow⟩ r q ?_ ?_ ?_ ?_
  · intro k f
    show V m c main_arg0 (((cfg0.win 1).blk t).view.emb (ix2 k f)) = (m ((c : Thread nD τ).loc main_arg0)) (ix2 k f)
    rw [V_main_arg0]
    refine congrArg (m ((c : Thread nD τ).loc main_arg0)) (funext fun a => Fin.ext ?_)
    match a with
    | ⟨0, _⟩ => show win0_1.index t (0 : Fin 2) * 10000 + 1 * k.val = k.val; omega
    | ⟨1, _⟩ => show win0_1.index t (1 : Fin 2) * 128 + 1 * f.val = f.val; omega
  · intro f
    show V m c main_arg2 (((cfg0.win 2).blk t).view.emb (ix2 q f)) = (m ((c : Thread nD τ).loc main_arg2)) (ix2 q f)
    rw [V_main_arg2]
    refine congrArg (m ((c : Thread nD τ).loc main_arg2)) (funext fun a => Fin.ext ?_)
    match a with
    | ⟨0, _⟩ => show win0_2.index t (0 : Fin 2) * 64 + 1 * q.val = q.val; omega
    | ⟨1, _⟩ => show win0_2.index t (1 : Fin 2) * 128 + 1 * f.val = f.val; omega
  · intro k
    show V m c main_arg1 (((cfg0.win 0).blk t).view.emb (ix2 r k)) = (m ((c : Thread nD τ).loc main_arg1)) (ix2 (⟨t.val * 400 + r.val, hrow⟩ : Fin 10000) k)
    rw [V_main_arg1]
    refine congrArg (m ((c : Thread nD τ).loc main_arg1)) (funext fun a => Fin.ext ?_)
    match a with
    | ⟨0, _⟩ => show win0_0.index t (0 : Fin 2) * 400 + 1 * r.val = t.val * 400 + r.val; omega
    | ⟨1, _⟩ => show win0_0.index t (1 : Fin 2) * 10000 + 1 * k.val = k.val; omega
  · show V m c main_v0 (((cfg0.win 3).blk t).view.emb (ix2 (0 : Fin 1) q)) = (m ((c : Thread nD τ).loc main_arg3)) (ix1 q)
    have hb : ((cfg0.win 3).blk t).view.emb (ix2 (0 : Fin 1) q) = ix2 (0 : Fin 1) q := by
      funext a; apply Fin.ext
      match a with
      | ⟨0, _⟩ => show win0_3.index t (0 : Fin 2) * 1 + 1 * 0 = 0; omega
      | ⟨1, _⟩ => show win0_3.index t (1 : Fin 2) * 64 + 1 * q.val = q.val; omega
    rw [hb]
    exact bias_matrix_apply m c q

/-- An index of the output is in point t's block iff each coordinate is in the block's range. -/
theorem mem_block (t : Fin cfg0.N) (i : S10000x64.Idx) :
    i ∈ ((cfg0.win 4).blk t).view.set ↔ ∀ a : Fin 2, win0_4.index t a * S400x64.size a ≤ (i a).val ∧ (i a).val < win0_4.index t a * S400x64.size a + S400x64.size a := by
  show i ∈ ((View.whole main_v1).slice (win0_4.rect t)).set ↔ _
  rw [View.set_slice_whole, Rect.mem_set_unit]
  exact Iff.rfl

/-- Row i is in the block of point i / 400: the 25 row blocks cover the output. -/
theorem covered (i : S10000x64.Idx) :
    ∃ t : Fin cfg0.N, (cfg0.win 4).flush t = true ∧ i ∈ ((cfg0.win 4).blk t).view.set := by
  have hi0 : (i 0).val < 10000 := (i 0).isLt
  have hi1 : (i 1).val < 64 := (i 1).isLt
  have hlt : (i 0).val / 400 < 25 := by omega
  refine ⟨⟨(i 0).val / 400, hlt⟩, flush0_4 _, ?_⟩
  obtain ⟨e00, e01, e10, e11, e20, e21, e30, e31, e40, e41⟩ := block_indices ⟨(i 0).val / 400, hlt⟩
  have e40' : win0_4.index ⟨(i 0).val / 400, hlt⟩ (0 : Fin 2) = (i 0).val / 400 := e40
  rw [mem_block]
  intro a
  match a with
  | ⟨0, _⟩ => show win0_4.index ⟨(i 0).val / 400, hlt⟩ (0 : Fin 2) * 400 ≤ (i 0).val ∧ (i 0).val < win0_4.index ⟨(i 0).val / 400, hlt⟩ (0 : Fin 2) * 400 + 400; omega
  | ⟨1, _⟩ => show win0_4.index ⟨(i 0).val / 400, hlt⟩ (1 : Fin 2) * 64 ≤ (i 1).val ∧ (i 1).val < win0_4.index ⟨(i 0).val / 400, hlt⟩ (1 : Fin 2) * 64 + 64; omega

/-- After the run the output array is the layer's output. -/
theorem final (c : Dev nD) : (dats m 0 c).arrAt 4 cfg0.N = layer m c :=
  (dats m 0 c).arrAt_eq_of_cover 4 (layer m c) (fun t _ => flushed_eq m c t) covered

/-- The kernel's run: it terminates with the result at "project, then propagate" of the launch-time arrays, and
    the arguments as launched. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.GraphLayer.Kernel

end
-- ==== Proof.lean ====
/-
  One graph-convolution layer, out = adj · x · Wᵀ + b, computed two ways. The reference multiplies in the order
  written: h = adj · x, then h · Wᵀ, then adds b. The kernel walks the 10000 rows of adj in 25 blocks of 400 rows;
  at each block it projects every node onto the 64 classes, p = x · Wᵀ, and then multiplies the block of adj by p
  and adds b. Over the extended reals, with every product exact, the two are the two bracketings of a triple
  product: entry (i, c) is ∑ k, adj[i, k] · (∑ f, x[k, f] · W[c, f]) + b[c] on the kernel's side and
  ∑ f, (∑ k, adj[i, k] · x[k, f]) · W[c, f] + b[c] on the reference's. They agree because the precondition makes
  every entry of adj, x and W a real number, where multiplication distributes over finite sums and the two sums
  exchange; without it the law fails (0 · ∞ conventions break distributivity).

  The three frames are the programs' runs with the results dropped. The idealized kernel is the kernel's own text
  read over the extended reals (no operation was rewritten), so there is nothing to preserve.
-/
import proofs.«111400_g65816078844241_cont_9to1c4b_298_6_alg».proof.Defs
import proofs.«111400_g65816078844241_cont_9to1c4b_298_6_alg».proof.Proof.Gen.Kernel
import proofs.«111400_g65816078844241_cont_9to1c4b_298_6_alg».proof.Proof.Gen.Kernel.Skeleton
import proofs.«111400_g65816078844241_cont_9to1c4b_298_6_alg».proof.Proof.Gen.Kernel.Launch
import proofs.«111400_g65816078844241_cont_9to1c4b_298_6_alg».proof.Proof.Gen.Kernel.Points
import proofs.«111400_g65816078844241_cont_9to1c4b_298_6_alg».proof.Proof.Gen.Kernel.Frame
import proofs.«111400_g65816078844241_cont_9to1c4b_298_6_alg».proof.Proof.Gen.KernelIdeal
import proofs.«111400_g65816078844241_cont_9to1c4b_298_6_alg».proof.Proof.Gen.KernelIdeal.Skeleton
import proofs.«111400_g65816078844241_cont_9to1c4b_298_6_alg».proof.Proof.Gen.KernelIdeal.Launch
import proofs.«111400_g65816078844241_cont_9to1c4b_298_6_alg».proof.Proof.Gen.KernelIdeal.Points
import proofs.«111400_g65816078844241_cont_9to1c4b_298_6_alg».proof.Proof.Gen.KernelIdeal.Frame
import proofs.«111400_g65816078844241_cont_9to1c4b_298_6_alg».proof.Proof.Gen.ReferenceIdeal
import proofs.«111400_g65816078844241_cont_9to1c4b_298_6_alg».proof.Proof.Gen.Pre_finite_inputs
import proofs.«111400_g65816078844241_cont_9to1c4b_298_6_alg».proof.Proof.Gen.KernelIdeal.Value
import proofs.«111400_g65816078844241_cont_9to1c4b_298_6_alg».proof.Proof.Gen.ReferenceIdeal.Run
import proofs.«111400_g65816078844241_cont_9to1c4b_298_6_alg».proof.Proof.Gen.ReferenceIdeal.Read
import proofs.«111400_g65816078844241_cont_9to1c4b_298_6_alg».proof.Proof.Finite
import proofs.«111400_g65816078844241_cont_9to1c4b_298_6_alg».proof.Proof.RefValue
import proofs.«111400_g65816078844241_cont_9to1c4b_298_6_alg».proof.Proof.KernelValue
import Idealize.ShloMosaic.Adequacy
import Idealize.ShloMosaic.Init

noncomputable section

namespace Cert.Proof

open Idealize.ShloMosaic Idealize.SL.Sem

/-- The kernel as printed terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is six host operations in a row: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the idealization. -/
theorem preserves : Cert.preserves_Kernel_KernelIdeal := trivial

/-- Both programs end with "project, then propagate" of the kernel's launch-time arrays: the kernel because each
    of its 25 row blocks is that function's block, the reference because it computes "propagate, then project"
    of arrays that agree with the kernel's, and the two bracketings agree on real entries. -/
theorem algebraic : Cert.algebraic_KernelIdeal_ReferenceIdeal := by
  intro m ρ m' ρ' hpre hagree
  refine ⟨fun c => Cert.GraphLayer.Kernel.layer m c, Cert.GraphLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.GraphLayer.reference_eq, (hagree c).1, (hagree c).2.1,
    (hagree c).2.2.1, (hagree c).2.2.2]
  obtain ⟨hx, hadj, hW, _⟩ := Cert.GraphLayer.allReal_of_pre _ _ _ _ (hpre c)
  exact (Cert.GraphLayer.projectThenPropagate_eq _ _ _ _ hx hadj hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
